-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096 : Shape := ⟨3, ![8, 16, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S8x16x4096 : S_.BroadcastsInDim S8x16x4096 (![] : Fin 0 → Fin S8x16x4096.rank)
  reducesTo_S8x16x4096_S_d0_1_2 : S8x16x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S11008 .f32) (main_arg5 : FVec F S4096x11008 .f32) (main_arg6 : FVec F S4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  let main_v24 : FVec F S4096x11008 .f32 := Host.absf main_arg5
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8x16x4096 .f32) (main_arg1 : FVec F S11008x4096 .f32) (main_arg2 : FVec F S11008 .f32) (main_arg3 : FVec F S11008x4096 .f32) (main_arg4 : FVec F S11008 .f32) (main_arg5 : FVec F S4096x11008 .f32) (main_arg6 : FVec F S4096 .f32) : IVec S_ 1 :=
  let main_v0 : FVec F S8x16x4096 .f32 := Host.absf main_arg0
  let main_cst : FVec F S_ .f32 := constant S_ .f32 0x7F800000#32
  let main_v1 : FVec F S8x16x4096 .f32 := broadcastInDim S8x16x4096 ![] bcast_S_S8x16x4096 main_cst
  let main_v2 : IVec S8x16x4096 1 := cmpf .olt main_v0 main_v1
  let main_c : IVec S_ 1 := constantI S_ 1 1#1
  let main_v3 : IVec S_ 1 := (fun x v => Host.reduce IntOp.andi x v reducesTo_S8x16x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x4096 .f32 := Host.absf main_arg3
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg4 main_arg5 main_arg6 main_v13 main_v16
-- ==== Kernel.lean ====
abbrev S8x16x4096 : Shape := ⟨3, ![8, 16, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S128x4096 : Shape := ⟨2, ![128, 4096]⟩
abbrev S1x11008 : Shape := ⟨2, ![1, 11008]⟩
abbrev S256x4096 : Shape := ⟨2, ![256, 4096]⟩
abbrev S1x256 : Shape := ⟨2, ![1, 256]⟩
abbrev S4096x256 : Shape := ⟨2, ![4096, 256]⟩
abbrev S128x256 : Shape := ⟨2, ![128, 256]⟩
abbrev S1x4096 : Shape := ⟨2, ![1, 4096]⟩

abbrev nBuf : Space → Nat
  | .hbm => 16
  | .vmem => 13
  | .smem => 0
  | _ => 0

abbrev bufTy : (tb : Table) → Fin (tcTables nBuf tb) → BufTy
  | .hbm, ⟨0, _⟩ => ⟨S8x16x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S128x4096, .f32⟩
  | .hbm, ⟨8, _⟩ => ⟨S128x4096, .bf16⟩
  | .hbm, ⟨9, _⟩ => ⟨S1x11008, .f32⟩
  | .hbm, ⟨10, _⟩ => ⟨S1x11008, .f32⟩
  | .hbm, ⟨11, _⟩ => ⟨S128x4096, .f32⟩
  | .hbm, ⟨12, _⟩ => ⟨S1x4096, .f32⟩
  | .hbm, ⟨13, _⟩ => ⟨S128x4096, .f32⟩
  | .hbm, ⟨14, _⟩ => ⟨S128x4096, .f32⟩
  | .hbm, ⟨15, _⟩ => ⟨S8x16x4096, .f32⟩
  | .local _ .vmem, ⟨0, _⟩ => ⟨S128x4096, .bf16⟩
  | .local _ .vmem, ⟨1, _⟩ => ⟨S256x4096, .f32⟩
  | .local _ .vmem, ⟨2, _⟩ => ⟨S256x4096, .f32⟩
  | .local _ .vmem, ⟨3, _⟩ => ⟨S1x256, .f32⟩
  | .local _ .vmem, ⟨4, _⟩ => ⟨S1x256, .f32⟩
  | .local _ .vmem, ⟨5, _⟩ => ⟨S256x4096, .f32⟩
  | .local _ .vmem, ⟨6, _⟩ => ⟨S256x4096, .f32⟩
  | .local _ .vmem, ⟨7, _⟩ => ⟨S1x256, .f32⟩
  | .local _ .vmem, ⟨8, _⟩ => ⟨S1x256, .f32⟩
  | .local _ .vmem, ⟨9, _⟩ => ⟨S4096x256, .f32⟩
  | .local _ .vmem, ⟨10, _⟩ => ⟨S4096x256, .f32⟩
  | .local _ .vmem, ⟨11, _⟩ => ⟨S128x4096, .f32⟩
  | .local _ .vmem, ⟨12, _⟩ => ⟨S128x4096, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![43], ![false]⟩

def k0_cond2 (i : grid0.Coords) : BitVec 1 :=
  let arg0 : BitVec 32 := BitVec.ofNat 32 (i 0).val
  let c42_i32 : BitVec 32 := 42#32
  let v31 : BitVec 1 := Scalar.cmpi .eq arg0 c42_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S8x16x4096_S128x4096 : S8x16x4096.ShapeCasts S128x4096
  bitsLt_bf16_f32 : FTy.bits .bf16 < FTy.bits .f32
  shapeCasts_S11008_S1x11008 : S11008.ShapeCasts S1x11008
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S4096x256_S4096x256_0_0 : ∀ a, (![0, 0] : Fin 2 → Nat) a + S4096x256.size a ≤ S4096x256.size a
  h_S4096x256 : 0 < S4096x256.numel
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S8x16x4096 : S128x4096.ShapeCasts S8x16x4096
  dot_S128x4096_S256x4096_S128x256_1_1_0_0_n_n_wf : DotDims.WF S128x4096 S256x4096 S128x256 [1] [1] [0] [0] [] []
  dot_S128x256_S4096x256_S128x4096_1_1_0_0_n_n_wf : DotDims.WF S128x256 S4096x256 S128x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .bf16 = 32 ∨ (Rect.block (s := S128x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .f32 = 32 ∨ (Rect.block (s := S11008x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x11008.size a
  hwx0_5 : ∀ i : grid0.Coords, EltTy.bits .f32 = 32 ∨ (Rect.block (s := S4096x11008) S4096x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S128x4096.size a
  hwx0_6 : ∀ i : grid0.Coords, EltTy.bits .f32 = 32 ∨ (Rect.block (s := S128x4096) S128x4096.size (cc0_transform_6 i) (hinb0_6 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf
def dot_S128x256_S4096x256_S128x4096_1_1_0_0_n_n : DotDims S128x256 S4096x256 S128x4096 where
  lhsContracting := [1]
  rhsContracting := [1]
  lhsNonContracting := [0]
  rhsNonContracting := [0]
  lhsBatch := []
  rhsBatch := []
  wf := dot_S128x256_S4096x256_S128x4096_1_1_0_0_n_n_wf

abbrev win0_0 : Pipeline.Window sig grid0 :=
  Pipeline.Window.ofSpec (Memref.whole main_v1) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x4096.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x16x4096 : Shape := ⟨3, ![8, 16, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S8x16x11008 : Shape := ⟨3, ![8, 16, 11008]⟩
abbrev S1x1x11008 : Shape := ⟨3, ![1, 1, 11008]⟩
abbrev S_ : Shape := ⟨0, ![]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S8x16x11008, .f32⟩
  | .hbm, ⟨8, _⟩ => ⟨S1x1x11008, .f32⟩
  | .hbm, ⟨9, _⟩ => ⟨S8x16x11008, .f32⟩
  | .hbm, ⟨10, _⟩ => ⟨S8x16x11008, .f32⟩
  | .hbm, ⟨11, _⟩ => ⟨S8x16x11008, .f32⟩
  | .hbm, ⟨12, _⟩ => ⟨S1x1x11008, .f32⟩
  | .hbm, ⟨13, _⟩ => ⟨S8x16x11008, .f32⟩
  | .hbm, ⟨14, _⟩ => ⟨S8x16x11008, .f32⟩
  | .hbm, ⟨15, _⟩ => ⟨S8x16x11008, .f32⟩
  | .hbm, ⟨16, _⟩ => ⟨S8x16x11008, .f32⟩
  | .hbm, ⟨17, _⟩ => ⟨S_, .f32⟩
  | .hbm, ⟨18, _⟩ => ⟨S8x16x11008, .f32⟩
  | .hbm, ⟨19, _⟩ => ⟨S8x16x11008, .f32⟩
  | .hbm, ⟨20, _⟩ => ⟨S_, .f32⟩
  | .hbm, ⟨21, _⟩ => ⟨S8x16x11008, .f32⟩
  | .hbm, ⟨22, _⟩ => ⟨S8x16x11008, .f32⟩
  | .hbm, ⟨23, _⟩ => ⟨S8x16x11008, .f32⟩
  | .hbm, ⟨24, _⟩ => ⟨S8x16x11008, .f32⟩
  | .hbm, ⟨25, _⟩ => ⟨S8x16x4096, .f32⟩
  | .hbm, ⟨26, _⟩ => ⟨S1x1x4096, .f32⟩
  | .hbm, ⟨27, _⟩ => ⟨S8x16x4096, .f32⟩
  | .hbm, ⟨28, _⟩ => ⟨S8x16x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S8x16x11008_0_1_2 : S1x1x11008.BroadcastsInDim S8x16x11008 (![0, 1, 2] : Fin 3 → Fin S8x16x11008.rank)
  bcast_S_S8x16x11008 : S_.BroadcastsInDim S8x16x11008 (![] : Fin 0 → Fin S8x16x11008.rank)
  bcast_S4096_S1x1x4096_2 : S4096.BroadcastsInDim S1x1x4096 (![2] : Fin 1 → Fin S1x1x4096.rank)
  bcast_S1x1x4096_S8x16x4096_0_1_2 : S1x1x4096.BroadcastsInDim S8x16x4096 (![0, 1, 2] : Fin 3 → Fin S8x16x4096.rank)
  dot_S8x16x4096_S11008x4096_S8x16x11008_2_1_01_0_n_n_wf : DotDims.WF S8x16x4096 S11008x4096 S8x16x11008 [2] [1] [0, 1] [0] [] []
  dot_S8x16x11008_S4096x11008_S8x16x4096_2_1_01_0_n_n_wf : DotDims.WF S8x16x11008 S4096x11008 S8x16x4096 [2] [1] [0, 1] [0] [] []

variable [Facts₀]

def dot_S8x16x4096_S11008x4096_S8x16x11008_2_1_01_0_n_n : DotDims S8x16x4096 S11008x4096 S8x16x11008 where
  lhsContracting := [2]
  rhsContracting := [1]
  lhsNonContracting := [0, 1]
  rhsNonContracting := [0]
  lhsBatch := []
  rhsBatch := []
  wf := dot_S8x16x4096_S11008x4096_S8x16x11008_2_1_01_0_n_n_wf
def dot_S8x16x11008_S4096x11008_S8x16x4096_2_1_01_0_n_n : DotDims S8x16x11008 S4096x11008 S8x16x4096 where
  lhsContracting := [2]
  rhsContracting := [1]
  lhsNonContracting := [0, 1]
  rhsNonContracting := [0]
  lhsBatch := []
  rhsBatch := []
  wf := dot_S8x16x11008_S4096x11008_S8x16x4096_2_1_01_0_n_n_wf

class Facts : Prop extends Facts₀ where

variable [Facts]
-- ==== Proof.Pieces.lean ====
/-
  What the kernel body leaves behind at one grid point, case by case, as values.

  The body keeps a running sum in a buffer that survives from one grid point to the next. At the first point it
  first overwrites that buffer with zeros and then adds the point's partial sum to what it reads back; at every
  later point it adds the point's partial sum to what the point before left; at the last point it also copies
  the buffer, after the addition, into the output block. Each store covers its whole buffer, so what a buffer
  holds afterwards is the value of the last store into it.
-/
import proofs.«124104_j27650999451936_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body starts at the origin of its buffer. -/
theorem hz : (![0, 0] : Fin 2 → Nat) = fun _ => 0 := funext fun a => by fin_cases a <;> rfl

/-- A middle point: the running sum becomes the old running sum plus this point's partial sum. -/
theorem scratch_B (c : Dev nD) (i : grid0.Coords) (arg1 : Memref sig .tc .vmem S128x4096 .bf16) (harg1 : arg1.IsWhole) (arg2 : Memref sig .tc .vmem S256x4096 .f32) (harg2 : arg2.IsWhole) (arg3 : Memref sig .tc .vmem S1x256 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S4096x256 .f32) (harg6 : arg6.IsWhole) (arg7 : Memref sig .tc .vmem S128x4096 .f32) (harg7 : arg7.IsWhole) (arg8 : Memref sig .tc .vmem S128x4096 .f32) (harg8 : arg8.IsWhole) (hc0 : ¬cond0_0 i) (hc1 : ¬cond0_1 i) (x0 : Vec F S128x4096 .bf16) (x1 : Vec F S256x4096 .f32) (x2 : Vec F S1x256 .f32) (x3 : Vec F S256x4096 .f32) (x4 : Vec F S1x256 .f32) (x5 : Vec F S4096x256 .f32) (xs0 : Vec F S128x4096 .f32) :
    sout0_B_0 c i arg1 harg1 arg2 harg2 arg3 harg3 arg4 harg4 arg5 harg5 arg6 harg6 arg7 harg7 arg8 harg8 hc0 hc1 x0 x1 x2 x3 x4 x5 xs0 = k0_pay2 x0 x1 x3 x2 x4 x5 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S128x4096) hz, View.ld_unit_zero (S := S256x4096) hz, View.ld_unit_zero (S := S1x256) hz, View.ld_unit_zero (S := S4096x256) hz]

/-- The last point: the running sum is updated as at a middle point. -/
theorem scratch_C (c : Dev nD) (i : grid0.Coords) (arg1 : Memref sig .tc .vmem S128x4096 .bf16) (harg1 : arg1.IsWhole) (arg2 : Memref sig .tc .vmem S256x4096 .f32) (harg2 : arg2.IsWhole) (arg3 : Memref sig .tc .vmem S1x256 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S4096x256 .f32) (harg6 : arg6.IsWhole) (arg7 : Memref sig .tc .vmem S128x4096 .f32) (harg7 : arg7.IsWhole) (arg8 : Memref sig .tc .vmem S128x4096 .f32) (harg8 : arg8.IsWhole) (hc0 : ¬cond0_0 i) (hc1 : cond0_1 i) (x0 : Vec F S128x4096 .bf16) (x1 : Vec F S256x4096 .f32) (x2 : Vec F S1x256 .f32) (x3 : Vec F S256x4096 .f32) (x4 : Vec F S1x256 .f32) (x5 : Vec F S4096x256 .f32) (xs0 : Vec F S128x4096 .f32) :
    sout0_C_0 c i arg1 harg1 arg2 harg2 arg3 harg3 arg4 harg4 arg5 harg5 arg6 harg6 arg7 harg7 arg8 harg8 hc0 hc1 x0 x1 x2 x3 x4 x5 xs0 = k0_pay2 x0 x1 x3 x2 x4 x5 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S128x4096) hz, View.ld_unit_zero (S := S256x4096) hz, View.ld_unit_zero (S := S1x256) hz, View.ld_unit_zero (S := S4096x256) hz, View.readCov_unit_zero (S := S128x4096) _ hz]

/-- The last point: the output block receives the running sum as it stands after this point's addition. -/
theorem out_C (c : Dev nD) (i : grid0.Coords) (arg1 : Memref sig .tc .vmem S128x4096 .bf16) (harg1 : arg1.IsWhole) (arg2 : Memref sig .tc .vmem S256x4096 .f32) (harg2 : arg2.IsWhole) (arg3 : Memref sig .tc .vmem S1x256 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S4096x256 .f32) (harg6 : arg6.IsWhole) (arg7 : Memref sig .tc .vmem S128x4096 .f32) (harg7 : arg7.IsWhole) (arg8 : Memref sig .tc .vmem S128x4096 .f32) (harg8 : arg8.IsWhole) (hc0 : ¬cond0_0 i) (hc1 : cond0_1 i) (x0 : Vec F S128x4096 .bf16) (x1 : Vec F S256x4096 .f32) (x2 : Vec F S1x256 .f32) (x3 : Vec F S256x4096 .f32) (x4 : Vec F S1x256 .f32) (x5 : Vec F S4096x256 .f32) (xs0 : Vec F S128x4096 .f32) :
    out0_C_6 c i arg1 harg1 arg2 harg2 arg3 harg3 arg4 harg4 arg5 harg5 arg6 harg6 arg7 harg7 arg8 harg8 hc0 hc1 x0 x1 x2 x3 x4 x5 xs0 = k0_pay2 x0 x1 x3 x2 x4 x5 xs0 := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S128x4096) hz, View.ld_unit_zero (S := S256x4096) hz, View.ld_unit_zero (S := S1x256) hz, View.ld_unit_zero (S := S4096x256) hz, View.readCov_unit_zero (S := S128x4096) _ hz]

/-- The first point: the running sum is this point's partial sum added to the zero block just stored. -/
theorem scratch_A (c : Dev nD) (i : grid0.Coords) (arg1 : Memref sig .tc .vmem S128x4096 .bf16) (harg1 : arg1.IsWhole) (arg2 : Memref sig .tc .vmem S256x4096 .f32) (harg2 : arg2.IsWhole) (arg3 : Memref sig .tc .vmem S1x256 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S4096x256 .f32) (harg6 : arg6.IsWhole) (arg7 : Memref sig .tc .vmem S128x4096 .f32) (harg7 : arg7.IsWhole) (arg8 : Memref sig .tc .vmem S128x4096 .f32) (harg8 : arg8.IsWhole) (hc0 : cond0_0 i) (hc1 : ¬cond0_1 i) (x0 : Vec F S128x4096 .bf16) (x1 : Vec F S256x4096 .f32) (x2 : Vec F S1x256 .f32) (x3 : Vec F S256x4096 .f32) (x4 : Vec F S1x256 .f32) (x5 : Vec F S4096x256 .f32) :
    sout0_A_0 c i arg1 harg1 arg2 harg2 arg3 harg3 arg4 harg4 arg5 harg5 arg6 harg6 arg7 harg7 arg8 harg8 hc0 hc1 x0 x1 x2 x3 x4 x5 = k0_pay2 x0 x1 x3 x2 x4 x5 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S128x4096) hz, View.readCov_unit_zero (S := S128x4096) _ hz]
  simp only [View.readAt_eq_ld, harg1.read_unread, harg2.read_unread, harg3.read_unread, harg4.read_unread, harg5.read_unread, harg6.read_unread, harg8.read_unread, View.ld_unit_zero (S := S128x4096) hz, View.ld_unit_zero (S := S256x4096) hz, View.ld_unit_zero (S := S1x256) hz, View.ld_unit_zero (S := S4096x256) hz]

end Cert.KernelIdeal.Pieces

end
-- ==== Proof.Accum.lean ====
/-
  The running sum, point by point.

  Grid point `t` turns the running sum `a` into `step t a`: `a` plus the partial sum over the 256 inner channels
  whose weight blocks the point holds. The buffer that carries the running sum is zeroed at point 0, so after point
  `n` it holds `step n (… (step 1 (step 0 zero)))`. The output block is written once, at the last point, with the
  running sum as it stands after that point's addition. Both facts are read off the per-point contents the frame
  run records, by induction on the point.
-/
import proofs.«124104_j27650999451936_1_alg».proof.Proof.Pieces

set_option maxRecDepth 16384

noncomputable section

namespace Cert.KernelIdeal.Accum

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- One point's update of the running sum, on the six blocks the point holds. -/
def step (c : Dev nD) (t : Fin cfg0.N) (a : Vec F S128x4096 .f32) : Vec F S128x4096 .f32 :=
  k0_pay2 (iblk m c 0 t) (iblk m c 1 t) (iblk m c 3 t) (iblk m c 2 t) (iblk m c 4 t) (iblk m c 5 t) a

/-- The running sum after point `n`: the updates of points 0 … n applied in order to the zero block. -/
def acc (c : Dev nD) : (n : ℕ) → n < cfg0.N → Vec F S128x4096 .f32
  | 0, h => step m c ⟨0, h⟩ (k0_pay1 (F := F))
  | n + 1, h => step m c ⟨n + 1, h⟩ (acc c n (Nat.lt_of_succ_lt h))

/-- After every point the carried buffer holds the running sum. -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    exact scratch_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) scM0_0 (Memref.isWhole_whole _) _ _ (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N))
  | n + 1, h => by
    have hN : cfg0.N = 43 := N_0
    have h0 : ¬(⟨n + 1, h⟩ : Fin cfg0.N).val % 43 = 0 := by dsimp only; omega
    by_cases h1 : (⟨n + 1, h⟩ : Fin cfg0.N).val % 43 = 42
    · rw [outsAt0_C m c ⟨n + 1, h⟩ h0 h1]
      dsimp only
      refine (scratch_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) _).trans ?_
      exact congrArg (step m c ⟨n + 1, h⟩) (scratch_eq c n _)
    · rw [outsAt0_B m c ⟨n + 1, h⟩ h0 h1]
      dsimp only
      refine (scratch_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) scM0_0 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) _).trans ?_
      exact congrArg (step m c ⟨n + 1, h⟩) (scratch_eq c n _)

/-- At the last point the output block receives the running sum after that point. -/
theorem out_last (c : Dev nD) (t : Fin cfg0.N) (h42 : t.val = 42) : (outsAt0 m c t.val t.isLt).1 = acc m c t.val t.isLt := by
  obtain ⟨n, h⟩ := t
  dsimp only at h42
  subst h42
  rw [outsAt0_C m c ⟨41 + 1, h⟩ (by show ¬(41 + 1) % 43 = 0; omega) (by show (41 + 1) % 43 = 42; omega)]
  dsimp only
  refine (out_C c (grid0.coords (⟨41 + 1, h⟩ : Fin cfg0.N)) (ms0_0 (⟨41 + 1, h⟩ : Fin cfg0.N)) (hs0_0 (⟨41 + 1, h⟩ : Fin cfg0.N)) (ms0_1 (⟨41 + 1, h⟩ : Fin cfg0.N)) (hs0_1 (⟨41 + 1, h⟩ : Fin cfg0.N)) (ms0_2 (⟨41 + 1, h⟩ : Fin cfg0.N)) (hs0_2 (⟨41 + 1, h⟩ : Fin cfg0.N)) (ms0_3 (⟨41 + 1, h⟩ : Fin cfg0.N)) (hs0_3 (⟨41 + 1, h⟩ : Fin cfg0.N)) (ms0_4 (⟨41 + 1, h⟩ : Fin cfg0.N)) (hs0_4 (⟨41 + 1, h⟩ : Fin cfg0.N)) (ms0_5 (⟨41 + 1, h⟩ : Fin cfg0.N)) (hs0_5 (⟨41 + 1, h⟩ : Fin cfg0.N)) (ms0_6 (⟨41 + 1, h⟩ : Fin cfg0.N)) (hs0_6 (⟨41 + 1, h⟩ : Fin cfg0.N)) scM0_0 (Memref.isWhole_whole _) _ _ (iblk m c 0 (⟨41 + 1, h⟩ : Fin cfg0.N)) (iblk m c 1 (⟨41 + 1, h⟩ : Fin cfg0.N)) (iblk m c 2 (⟨41 + 1, h⟩ : Fin cfg0.N)) (iblk m c 3 (⟨41 + 1, h⟩ : Fin cfg0.N)) (iblk m c 4 (⟨41 + 1, h⟩ : Fin cfg0.N)) (iblk m c 5 (⟨41 + 1, h⟩ : Fin cfg0.N)) _).trans ?_
  exact congrArg (step m c ⟨41 + 1, h⟩) (scratch_eq m c 41 _)

end Cert.KernelIdeal.Accum

end
-- ==== Proof.Payload.lean ====
/-
  The kernel body's arithmetic at one grid point, read at one entry of its result.

  At a point the body holds the 128 rows of activations (`hb`), a block of 256 rows of each of the two input-side
  weight matrices (`b1`, `b3`) with their 256 scales (`c1`, `c3`), the matching 256 columns of the output-side
  matrix (`b2`), and the accumulator (`acc`). Entry (r, j) of what it stores back into the accumulator is the old
  entry plus the sum, over the block's 256 inner channels `o`, of  silu(up r o) · gate r o · b2 j o, where
  up r o = (∑ h, hb r h · b1 o h) · c1 o  and  gate r o = (∑ h, hb r h · b3 o h) · c3 o.
  The two matrix products start from a zero accumulator, the change of float format is the identity on the
  extended reals, and the row of scales is broadcast down the 128 rows.
-/
import proofs.«124104_j27650999451936_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx

/-- Row `r` of the activations against local channel `o` of a weight block, times that channel's scale. -/
def bproj (hb : FVec Ideal S128x4096 .bf16) (wb : FVec Ideal S256x4096 .f32) (sb : FVec Ideal S1x256 .f32)
    (r : Fin 128) (o : Fin 256) : EReal :=
  (∑ h : Fin 4096, hb (ix2 r h) * wb (ix2 o h)) * sb (ix2 (0 : Fin 1) o)

/-- In an input-side product the left operand is read on its row axis at the result's row. -/
theorem lhs_mm1_0 (i : S128x256.Idx) (q : dot_S128x4096_S256x4096_S128x256_1_1_0_0_n_n.contr.Idx) :
    (dot_S128x4096_S256x4096_S128x256_1_1_0_0_n_n.lhsIdx i q 0).val = (i 0).val := by
  unfold DotDims.lhsIdx
  rw [dif_neg (show ¬(0 : Fin S128x4096.rank) ∈ dot_S128x4096_S256x4096_S128x256_1_1_0_0_n_n.lhsBatch by decide), dif_pos (show (0 : Fin S128x4096.rank) ∈ dot_S128x4096_S256x4096_S128x256_1_1_0_0_n_n.lhsNonContracting by decide)]
  rfl
/-- … and on its contracted axis at the contraction position. -/
theorem lhs_mm1_1 (i : S128x256.Idx) (q : dot_S128x4096_S256x4096_S128x256_1_1_0_0_n_n.contr.Idx) :
    (dot_S128x4096_S256x4096_S128x256_1_1_0_0_n_n.lhsIdx i q 1).val = (q ⟨0, by decide⟩).val :=
  dot_S128x4096_S256x4096_S128x256_1_1_0_0_n_n.lhsIdx_val_of_single rfl i q
/-- The right operand is read on its row axis at the result's column … -/
theorem rhs_mm1_0 (i : S128x256.Idx) (q : dot_S128x4096_S256x4096_S128x256_1_1_0_0_n_n.contr.Idx) :
    (dot_S128x4096_S256x4096_S128x256_1_1_0_0_n_n.rhsIdx i q 0).val = (i 1).val := by
  unfold DotDims.rhsIdx
  rw [dif_neg (show ¬(0 : Fin S256x4096.rank) ∈ dot_S128x4096_S256x4096_S128x256_1_1_0_0_n_n.rhsBatch by decide), dif_pos (show (0 : Fin S256x4096.rank) ∈ dot_S128x4096_S256x4096_S128x256_1_1_0_0_n_n.rhsNonContracting by decide)]
  rfl
/-- … and on its contracted axis at the contraction position. -/
theorem rhs_mm1_1 (i : S128x256.Idx) (q : dot_S128x4096_S256x4096_S128x256_1_1_0_0_n_n.contr.Idx) :
    (dot_S128x4096_S256x4096_S128x256_1_1_0_0_n_n.rhsIdx i q 1).val = (q ⟨0, by decide⟩).val :=
  dot_S128x4096_S256x4096_S128x256_1_1_0_0_n_n.rhsIdx_val_of_single rfl i q

/-- An input-side product into a zero accumulator: entry (r, c) is the sum over the 4096 hidden channels of row r of the left operand against row c of the right. -/
theorem mm1_apply (l : FVec Ideal S128x4096 .bf16) (w : FVec Ideal S256x4096 .bf16) (r : Fin 128) (c : Fin 256) :
    matmul (F := Ideal) dot_S128x4096_S256x4096_S128x256_1_1_0_0_n_n none l w (constant S128x256 .f32 0x00000000#32) (ix2 r c)
      = ∑ k : Fin 4096, l (ix2 r k) * w (ix2 c k) := by
  refine (Ideal.matmul_constant_zero_apply dot_S128x4096_S256x4096_S128x256_1_1_0_0_n_n none l w (ix2 r c)).trans ?_
  rw [← Equiv.sum_comp (contrEquiv1 dot_S128x4096_S256x4096_S128x256_1_1_0_0_n_n 4096 rfl rfl).symm]
  refine Finset.sum_congr rfl fun k _ => ?_
  have hk := contrEquiv1_symm_val dot_S128x4096_S256x4096_S128x256_1_1_0_0_n_n 4096 rfl rfl k
  have el : dot_S128x4096_S256x4096_S128x256_1_1_0_0_n_n.lhsIdx (ix2 r c) ((contrEquiv1 dot_S128x4096_S256x4096_S128x256_1_1_0_0_n_n 4096 rfl rfl).symm k) = ix2 r k := funext fun a => Fin.ext (by
    match a with
    | ⟨0, _⟩ => exact lhs_mm1_0 _ _
    | ⟨1, _⟩ => exact (lhs_mm1_1 _ _).trans hk)
  have er : dot_S128x4096_S256x4096_S128x256_1_1_0_0_n_n.rhsIdx (ix2 r c) ((contrEquiv1 dot_S128x4096_S256x4096_S128x256_1_1_0_0_n_n 4096 rfl rfl).symm k) = ix2 c k := funext fun a => Fin.ext (by
    match a with
    | ⟨0, _⟩ => exact rhs_mm1_0 _ _
    | ⟨1, _⟩ => exact (rhs_mm1_1 _ _).trans hk)
  rw [el, er]

/-- In the output-side product the left operand is read on its row axis at the result's row. -/
theorem lhs_mm2_0 (i : S128x4096.Idx) (q : dot_S128x256_S4096x256_S128x4096_1_1_0_0_n_n.contr.Idx) :
    (dot_S128x256_S4096x256_S128x4096_1_1_0_0_n_n.lhsIdx i q 0).val = (i 0).val := by
  unfold DotDims.lhsIdx
  rw [dif_neg (show ¬(0 : Fin S128x256.rank) ∈ dot_S128x256_S4096x256_S128x4096_1_1_0_0_n_n.lhsBatch by decide), dif_pos (show (0 : Fin S128x256.rank) ∈ dot_S128x256_S4096x256_S128x4096_1_1_0_0_n_n.lhsNonContracting by decide)]
  rfl
/-- … and on its contracted axis at the contraction position. -/
theorem lhs_mm2_1 (i : S128x4096.Idx) (q : dot_S128x256_S4096x256_S128x4096_1_1_0_0_n_n.contr.Idx) :
    (dot_S128x256_S4096x256_S128x4096_1_1_0_0_n_n.lhsIdx i q 1).val = (q ⟨0, by decide⟩).val :=
  dot_S128x256_S4096x256_S128x4096_1_1_0_0_n_n.lhsIdx_val_of_single rfl i q
/-- The right operand is read on its row axis at the result's column … -/
theorem rhs_mm2_0 (i : S128x4096.Idx) (q : dot_S128x256_S4096x256_S128x4096_1_1_0_0_n_n.contr.Idx) :
    (dot_S128x256_S4096x256_S128x4096_1_1_0_0_n_n.rhsIdx i q 0).val = (i 1).val := by
  unfold DotDims.rhsIdx
  rw [dif_neg (show ¬(0 : Fin S4096x256.rank) ∈ dot_S128x256_S4096x256_S128x4096_1_1_0_0_n_n.rhsBatch by decide), dif_pos (show (0 : Fin S4096x256.rank) ∈ dot_S128x256_S4096x256_S128x4096_1_1_0_0_n_n.rhsNonContracting by decide)]
  rfl
/-- … and on its contracted axis at the contraction position. -/
theorem rhs_mm2_1 (i : S128x4096.Idx) (q : dot_S128x256_S4096x256_S128x4096_1_1_0_0_n_n.contr.Idx) :
    (dot_S128x256_S4096x256_S128x4096_1_1_0_0_n_n.rhsIdx i q 1).val = (q ⟨0, by decide⟩).val :=
  dot_S128x256_S4096x256_S128x4096_1_1_0_0_n_n.rhsIdx_val_of_single rfl i q

/-- The output-side product into a zero accumulator: entry (r, c) is the sum over the block's 256 inner channels of row r of the left operand against row c of the right. -/
theorem mm2_apply (l : FVec Ideal S128x256 .bf16) (w : FVec Ideal S4096x256 .bf16) (r : Fin 128) (c : Fin 4096) :
    matmul (F := Ideal) dot_S128x256_S4096x256_S128x4096_1_1_0_0_n_n none l w (constant S128x4096 .f32 0x00000000#32) (ix2 r c)
      = ∑ k : Fin 256, l (ix2 r k) * w (ix2 c k) := by
  refine (Ideal.matmul_constant_zero_apply dot_S128x256_S4096x256_S128x4096_1_1_0_0_n_n none l w (ix2 r c)).trans ?_
  rw [← Equiv.sum_comp (contrEquiv1 dot_S128x256_S4096x256_S128x4096_1_1_0_0_n_n 256 rfl rfl).symm]
  refine Finset.sum_congr rfl fun k _ => ?_
  have hk := contrEquiv1_symm_val dot_S128x256_S4096x256_S128x4096_1_1_0_0_n_n 256 rfl rfl k
  have el : dot_S128x256_S4096x256_S128x4096_1_1_0_0_n_n.lhsIdx (ix2 r c) ((contrEquiv1 dot_S128x256_S4096x256_S128x4096_1_1_0_0_n_n 256 rfl rfl).symm k) = ix2 r k := funext fun a => Fin.ext (by
    match a with
    | ⟨0, _⟩ => exact lhs_mm2_0 _ _
    | ⟨1, _⟩ => exact (lhs_mm2_1 _ _).trans hk)
  have er : dot_S128x256_S4096x256_S128x4096_1_1_0_0_n_n.rhsIdx (ix2 r c) ((contrEquiv1 dot_S128x256_S4096x256_S128x4096_1_1_0_0_n_n 256 rfl rfl).symm k) = ix2 c k := funext fun a => Fin.ext (by
    match a with
    | ⟨0, _⟩ => exact rhs_mm2_0 _ _
    | ⟨1, _⟩ => exact (rhs_mm2_1 _ _).trans hk)
  rw [el, er]

/-- An input-side product with its scales, at entry (r, o): the weight block's change of format is the identity on the
    extended reals and the one row of scales reads at column o on every row, so the entry is `bproj`. -/
theorem proj_apply (hb : FVec Ideal S128x4096 .bf16) (wb : FVec Ideal S256x4096 .f32) (sb : FVec Ideal S1x256 .f32)
    (r : Fin 128) (o : Fin 256) :
    mulf (matmul (F := Ideal) dot_S128x4096_S256x4096_S128x256_1_1_0_0_n_n none hb (truncf .bf16 wb bitsLt_bf16_f32) (constant S128x256 .f32 0x00000000#32))
        (broadcastTo S128x256 sb broadcasts_S1x256_S128x256) (ix2 r o)
      = bproj hb wb sb r o := by
  rw [mulf_apply, mm1_apply, broadcastTo_1b_ab_apply]
  rfl

/-- Entry (r, j) of the accumulate store's value: the old accumulator entry plus the block's partial sum. -/
theorem pay2_apply (hb : FVec Ideal S128x4096 .bf16) (b1 b3 : FVec Ideal S256x4096 .f32) (c1 c3 : FVec Ideal S1x256 .f32)
    (b2 : FVec Ideal S4096x256 .f32) (acc : FVec Ideal S128x4096 .f32) (r : Fin 128) (j : Fin 4096) :
    k0_pay2 (F := Ideal) hb b1 b3 c1 c3 b2 acc (ix2 r j)
      = acc (ix2 r j) + ∑ o : Fin 256,
          ((bproj hb b1 c1 r o * Ideal.logistic (bproj hb b1 c1 r o)) * bproj hb b3 c3 r o) * b2 (ix2 j o) := by
  unfold k0_pay2
  -- the casts to the same shape are the identity
  simp only [shapeCast_self]
  -- the store's value is the old accumulator plus the output-side product
  rw [addf_apply]
  refine congrArg (acc (ix2 r j) + ·) ?_
  -- that product, entry by entry, is the sum over the block's inner channels
  refine (mm2_apply _ _ r j).trans ?_
  refine Finset.sum_congr rfl fun o _ => ?_
  -- each summand: the gated activation at (r, o) times the output-side weight at (j, o); the format changes are the
  -- identity, the products and the logistic function are taken entry by entry
  rw [← proj_apply hb b1 c1 r o, ← proj_apply hb b3 c3 r o]
  rfl

end Cert.KernelIdeal.Chunk

end
-- ==== Proof.Blocks.lean ====
/-
  What each window's block holds at a grid point, and what the arrays hold that the region is entered with.

  Point `t` of the 43 holds: all 128 rows of the activations; rows 256 t … 256 t + 255 of each input-side weight
  matrix with the same stretch of its scales; and columns 256 t … 256 t + 255 of the output-side weight matrix. So
  local channel `o` of a block is inner channel 256 t + o of the layer.
  Before the region the program lays the activations [8,16,4096] out as 128 rows, row 16 b + s being (b, s), and
  changes their float format (the identity on the extended reals); each vector of 11008 scales becomes a 1 × 11008 row.
-/
import proofs.«124104_j27650999451936_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## Which block a point holds -/

/-- The printed index maps, decided over the grid: the activations' and the output's block never moves; the blocks of
    the input-side matrices move down their rows with the point, those of the scales and of the output-side matrix
    along their columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = 0 :=
  (by decide +kernel : ∀ t : Fin grid0.N, _)

/-- A local channel of point `t`'s blocks is an inner channel of the layer. -/
theorem chan_lt (t : Fin cfg0.N) (o : Fin 256) : 256 * t.val + o.val < 11008 := by
  have hN : cfg0.N = 43 := N_0
  have := t.isLt; have := o.isLt; omega

/-- The activations' block is the whole array of activations. -/
theorem x_read (c : Dev nD) (t : Fin cfg0.N) (r : Fin 128) (h : Fin 4096) :
    (iblk m c 0 t : Vec Ideal S128x4096 .bf16) (ix2 r h) = V m c main_v1 (ix2 r h) := by
  obtain ⟨e00, e01, e10, e11, e20, e21, e30, e31, e40, e41, e50, e51, e60, e61⟩ := idx_facts t
  show V m c main_v1 (((cfg0.win 0).blk t).view.emb (ix2 r h)) = _
  refine congrArg (V m c main_v1) (funext fun a => Fin.ext ?_)
  match a with
  | ⟨0, _⟩ => show win0_0.index t (0 : Fin 2) * 128 + 1 * r.val = r.val; omega
  | ⟨1, _⟩ => show win0_0.index t (1 : Fin 2) * 4096 + 1 * h.val = h.val; omega

/-- Row \`o\` of the first input-side block is row 256 t + o of that matrix. -/
theorem w1_read (c : Dev nD) (t : Fin cfg0.N) (o : Fin 256) (h : Fin 4096) (hc : 256 * t.val + o.val < 11008) :
    (iblk m c 1 t : Vec Ideal S256x4096 .f32) (ix2 o h) = V m c main_arg1 (ix2 ⟨256 * t.val + o.val, hc⟩ h) := by
  obtain ⟨e00, e01, e10, e11, e20, e21, e30, e31, e40, e41, e50, e51, e60, e61⟩ := idx_facts t
  show V m c main_arg1 (((cfg0.win 1).blk t).view.emb (ix2 o h)) = _
  refine congrArg (V m c main_arg1) (funext fun a => Fin.ext ?_)
  match a with
  | ⟨0, _⟩ => show win0_1.index t (0 : Fin 2) * 256 + 1 * o.val = 256 * t.val + o.val; omega
  | ⟨1, _⟩ => show win0_1.index t (1 : Fin 2) * 4096 + 1 * h.val = h.val; omega

/-- Entry \`o\` of the first block of scales is scale 256 t + o. -/
theorem s1_read (c : Dev nD) (t : Fin cfg0.N) (u : Fin 1) (o : Fin 256) (hc : 256 * t.val + o.val < 11008) :
    (iblk m c 2 t : Vec Ideal S1x256 .f32) (ix2 u o) = V m c main_v2 (ix2 u ⟨256 * t.val + o.val, hc⟩) := by
  obtain ⟨e00, e01, e10, e11, e20, e21, e30, e31, e40, e41, e50, e51, e60, e61⟩ := idx_facts t
  show V m c main_v2 (((cfg0.win 2).blk t).view.emb (ix2 u o)) = _
  refine congrArg (V m c main_v2) (funext fun a => Fin.ext ?_)
  match a with
  | ⟨0, _⟩ => show win0_2.index t (0 : Fin 2) * 1 + 1 * u.val = u.val; omega
  | ⟨1, _⟩ => show win0_2.index t (1 : Fin 2) * 256 + 1 * o.val = 256 * t.val + o.val; omega

/-- Row \`o\` of the second input-side block is row 256 t + o of that matrix. -/
theorem w3_read (c : Dev nD) (t : Fin cfg0.N) (o : Fin 256) (h : Fin 4096) (hc : 256 * t.val + o.val < 11008) :
    (iblk m c 3 t : Vec Ideal S256x4096 .f32) (ix2 o h) = V m c main_arg3 (ix2 ⟨256 * t.val + o.val, hc⟩ h) := by
  obtain ⟨e00, e01, e10, e11, e20, e21, e30, e31, e40, e41, e50, e51, e60, e61⟩ := idx_facts t
  show V m c main_arg3 (((cfg0.win 3).blk t).view.emb (ix2 o h)) = _
  refine congrArg (V m c main_arg3) (funext fun a => Fin.ext ?_)
  match a with
  | ⟨0, _⟩ => show win0_3.index t (0 : Fin 2) * 256 + 1 * o.val = 256 * t.val + o.val; omega
  | ⟨1, _⟩ => show win0_3.index t (1 : Fin 2) * 4096 + 1 * h.val = h.val; omega

/-- Entry \`o\` of the second block of scales is scale 256 t + o. -/
theorem s3_read (c : Dev nD) (t : Fin cfg0.N) (u : Fin 1) (o : Fin 256) (hc : 256 * t.val + o.val < 11008) :
    (iblk m c 4 t : Vec Ideal S1x256 .f32) (ix2 u o) = V m c main_v3 (ix2 u ⟨256 * t.val + o.val, hc⟩) := by
  obtain ⟨e00, e01, e10, e11, e20, e21, e30, e31, e40, e41, e50, e51, e60, e61⟩ := idx_facts t
  show V m c main_v3 (((cfg0.win 4).blk t).view.emb (ix2 u o)) = _
  refine congrArg (V m c main_v3) (funext fun a => Fin.ext ?_)
  match a with
  | ⟨0, _⟩ => show win0_4.index t (0 : Fin 2) * 1 + 1 * u.val = u.val; omega
  | ⟨1, _⟩ => show win0_4.index t (1 : Fin 2) * 256 + 1 * o.val = 256 * t.val + o.val; omega

/-- Column \`o\` of the output-side block is column 256 t + o of that matrix. -/
theorem w2_read (c : Dev nD) (t : Fin cfg0.N) (j : Fin 4096) (o : Fin 256) (hc : 256 * t.val + o.val < 11008) :
    (iblk m c 5 t : Vec Ideal S4096x256 .f32) (ix2 j o) = V m c main_arg5 (ix2 j ⟨256 * t.val + o.val, hc⟩) := by
  obtain ⟨e00, e01, e10, e11, e20, e21, e30, e31, e40, e41, e50, e51, e60, e61⟩ := idx_facts t
  show V m c main_arg5 (((cfg0.win 5).blk t).view.emb (ix2 j o)) = _
  refine congrArg (V m c main_arg5) (funext fun a => Fin.ext ?_)
  match a with
  | ⟨0, _⟩ => show win0_5.index t (0 : Fin 2) * 4096 + 1 * j.val = j.val; omega
  | ⟨1, _⟩ => show win0_5.index t (1 : Fin 2) * 256 + 1 * o.val = 256 * t.val + o.val; omega

/-! ## What the region is entered with -/

/-- Row 16 b + s of the activations as the region finds them is row (b, s) of the argument: the rows are laid out in
    order, and the change of float format is the identity on the extended reals. -/
theorem x_entry (c : Dev nD) (b : Fin 8) (s : Fin 16) (h : Fin 4096) (hr : 16 * b.val + s.val < 128) :
    V m c main_v1 (ix2 ⟨16 * b.val + s.val, hr⟩ h) = m ((c : Thread nD τ).loc main_arg0) (ix3 b s h) := by
  have e : V m c main_v1 = truncf (F := Ideal) .bf16 (shapeCast S128x4096 (m ((c : Thread nD τ).loc main_arg0)) shapeCasts_S8x16x4096_S128x4096) bitsLt_bf16_f32 := by
    show StableHlo.after hostOps0 (fun b => m (c, b)) (Proc.devRef .tc main_v1) = _
    after_results
    rfl
  rw [e]
  show shapeCast S128x4096 (m ((c : Thread nD τ).loc main_arg0)) shapeCasts_S8x16x4096_S128x4096 (ix2 ⟨16 * b.val + s.val, hr⟩ h) = _
  refine shapeCast_apply _ _ _ (ix3 b s h) ?_
  rw [Shape.rowMajor_val_three, Shape.rowMajor_val_two]
  show (b.val * 16 + s.val) * 4096 + h.val = (16 * b.val + s.val) * 4096 + h.val
  omega

/-- The first row of scales as the region finds it is the first vector of scales. -/
theorem s1_entry (c : Dev nD) (u : Fin 1) (k : Fin 11008) :
    V m c main_v2 (ix2 u k) = m ((c : Thread nD τ).loc main_arg2) (ix1 k) := by
  have e : V m c main_v2 = shapeCast S1x11008 (m ((c : Thread nD τ).loc main_arg2)) shapeCasts_S11008_S1x11008 := by
    show StableHlo.after hostOps0 (fun b => m (c, b)) (Proc.devRef .tc main_v2) = _
    after_results
    rfl
  rw [e]
  exact shapeCast_a_1a_apply _ _ u k

/-- The second row of scales as the region finds it is the second vector of scales. -/
theorem s3_entry (c : Dev nD) (u : Fin 1) (k : Fin 11008) :
    V m c main_v3 (ix2 u k) = m ((c : Thread nD τ).loc main_arg4) (ix1 k) := by
  have e : V m c main_v3 = shapeCast S1x11008 (m ((c : Thread nD τ).loc main_arg4)) shapeCasts_S11008_S1x11008 := by
    show StableHlo.after hostOps0 (fun b => m (c, b)) (Proc.devRef .tc main_v3) = _
    after_results
    rfl
  rw [e]
  exact shapeCast_a_1a_apply _ _ u k

end Cert.KernelIdeal.Blocks

end
-- ==== Proof.Spec.lean ====
/-
  The mathematics both programs compute, as functions over the extended reals.

  One row `xr` of the activations (4096 entries) goes through a gated feed-forward layer whose three weight
  matrices carry a scale per output channel:
      up c   = (∑ h, xr h · w1 c h) · s1 c
      gate c = (∑ h, xr h · w3 c h) · s3 c
      act c  = (up c · logistic (up c)) · gate c              (c ranges over the 11008 inner channels)
      out j  = (∑ c, act c · w2 j c) · s2 j                   (j ranges over the 4096 output channels)
  The reference forms the sum over `c` at once. The kernel forms it in 43 chunks of 256 consecutive channels,
  adding each chunk's partial sum to an accumulator that starts at zero: `((0 + p₀) + p₁) + … + p₄₂`. Addition of
  extended reals is commutative and associative (the convention `⊤ + ⊥ = ⊥` included), so the two agree on every
  input, finite or not: `sum_eq_chain`.
-/
import Idealize.ShloMosaic.PureOps.Ideal
import Mathlib.Algebra.BigOperators.Fin

noncomputable section

namespace Cert.Ffn

open Idealize.ShloMosaic

/-! ## The layer, one row at a time -/

/-- A scaled projection of the row: the dot product of the row with row `c` of `w`, times channel `c`'s scale. -/
def proj (xr : Fin 4096 → EReal) (w : Fin 11008 → Fin 4096 → EReal) (s : Fin 11008 → EReal) (c : Fin 11008) : EReal :=
  (∑ h : Fin 4096, xr h * w c h) * s c

/-- The gated activation of inner channel `c`: `silu (up c) · gate c`, with `silu u = u · logistic u`. -/
def act (xr : Fin 4096 → EReal) (w1 w3 : Fin 11008 → Fin 4096 → EReal) (s1 s3 : Fin 11008 → EReal) (c : Fin 11008) : EReal :=
  (proj xr w1 s1 c * Ideal.logistic (proj xr w1 s1 c)) * proj xr w3 s3 c

/-- Inner channel `c`'s contribution to output channel `j`, before the output scale. -/
def term (xr : Fin 4096 → EReal) (w1 w3 : Fin 11008 → Fin 4096 → EReal) (s1 s3 : Fin 11008 → EReal)
    (w2 : Fin 4096 → Fin 11008 → EReal) (j : Fin 4096) (c : Fin 11008) : EReal :=
  act xr w1 w3 s1 s3 c * w2 j c

/-- Output channel `j` of the row. -/
def out (xr : Fin 4096 → EReal) (w1 w3 : Fin 11008 → Fin 4096 → EReal) (s1 s3 : Fin 11008 → EReal)
    (w2 : Fin 4096 → Fin 11008 → EReal) (s2 : Fin 4096 → EReal) (j : Fin 4096) : EReal :=
  (∑ c : Fin 11008, term xr w1 w3 s1 s3 w2 j c) * s2 j

/-! ## A sum taken chunk by chunk -/

section Chunks

variable {M : Type*} [AddCommMonoid M]

/-- A function on `Fin n` continued by zero to all naturals, so that chunks can be addressed by arithmetic. -/
def ext {n : ℕ} (f : Fin n → M) (i : ℕ) : M := if h : i < n then f ⟨i, h⟩ else 0

theorem ext_of_lt {n : ℕ} (f : Fin n → M) {i : ℕ} (h : i < n) : ext f i = f ⟨i, h⟩ := dif_pos h

/-- The partial sum over chunk `k`: the 256 consecutive indices from `256 k`. -/
def chunk (g : ℕ → M) (k : ℕ) : M := ∑ o : Fin 256, g (256 * k + o.val)

/-- The accumulator after chunk `n`: it starts from zero at chunk 0 and each later chunk is added on the right. -/
def chain (g : ℕ → M) : ℕ → M
  | 0 => 0 + chunk g 0
  | n + 1 => chain g n + chunk g (n + 1)

theorem chunk_eq_range (g : ℕ → M) (k : ℕ) : chunk g k = ∑ o ∈ Finset.range 256, g (256 * k + o) :=
  Fin.sum_univ_eq_sum_range (fun o => g (256 * k + o)) 256

/-- After chunk `n` the accumulator holds the sum over the first `256 (n + 1)` indices. -/
theorem chain_eq_range (g : ℕ → M) : ∀ n : ℕ, chain g n = ∑ i ∈ Finset.range (256 * (n + 1)), g i
  | 0 => by
    rw [chain, zero_add, chunk_eq_range]
    exact Finset.sum_congr rfl fun o _ => by rw [Nat.mul_zero, Nat.zero_add]
  | n + 1 => by
    rw [chain, chain_eq_range g n, chunk_eq_range, show 256 * (n + 1 + 1) = 256 * (n + 1) + 256 from by ring,
      Finset.sum_range_add]

/-- The whole sum over 11008 = 43 · 256 indices is the accumulator after the last of the 43 chunks. -/
theorem sum_eq_chain (f : Fin 11008 → M) : ∑ c : Fin 11008, f c = chain (ext f) 42 := by
  rw [chain_eq_range]
  rw [← Fin.sum_univ_eq_sum_range (ext f) 11008]
  exact Finset.sum_congr rfl fun c _ => (ext_of_lt f c.isLt).symm

end Chunks

end Cert.Ffn

end
-- ==== Proof.Chain.lean ====
/-
  The running sum is the layer's sum, chunk by chunk.

  Read through the windows, the body's arithmetic at point `t` is the layer's own: a block's scaled projection at
  local channel `o` is the layer's projection at inner channel 256 t + o, so the partial sum a point adds is chunk
  `t` of the layer's terms for the entry's row and output channel. The running sum after point `n` is therefore the
  chain of the first n + 1 chunks from zero, and after the last point it is the whole sum over the 11008 channels.
-/
import proofs.«124104_j27650999451936_1_alg».proof.Proof.Accum
import proofs.«124104_j27650999451936_1_alg».proof.Proof.Payload
import proofs.«124104_j27650999451936_1_alg».proof.Proof.Blocks
import proofs.«124104_j27650999451936_1_alg».proof.Proof.Spec

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open Cert.Ffn Cert.KernelIdeal.Chunk Cert.KernelIdeal.Accum Cert.KernelIdeal.Blocks

/-! ## A block's arithmetic is the layer's, over any data the block is read from -/

/-- A block's scaled projection at local channel `o` is the layer's at inner channel 256 k + o, when the block's
    entries are the matrix's and the scales' at that channel. -/
theorem bproj_eq (hb : FVec Ideal S128x4096 .bf16) (wb : FVec Ideal S256x4096 .f32) (sb : FVec Ideal S1x256 .f32)
    (xr : Fin 4096 → EReal) (w : Fin 11008 → Fin 4096 → EReal) (s : Fin 11008 → EReal)
    (k : ℕ) (r : Fin 128) (o : Fin 256) (hc : 256 * k + o.val < 11008)
    (Hx : ∀ h, hb (ix2 r h) = xr h) (Hw : ∀ h, wb (ix2 o h) = w ⟨256 * k + o.val, hc⟩ h)
    (Hs : sb (ix2 (0 : Fin 1) o) = s ⟨256 * k + o.val, hc⟩) :
    bproj hb wb sb r o = proj xr w s ⟨256 * k + o.val, hc⟩ := by
  unfold bproj proj
  rw [Hs]
  exact congrArg (· * s ⟨256 * k + o.val, hc⟩) (Finset.sum_congr rfl fun h _ => by rw [Hx h, Hw h])

/-- So the summand of a point's partial sum at local channel `o` is the layer's term at inner channel 256 k + o. -/
theorem term_eq (hb : FVec Ideal S128x4096 .bf16) (b1 b3 : FVec Ideal S256x4096 .f32) (c1 c3 : FVec Ideal S1x256 .f32)
    (b2 : FVec Ideal S4096x256 .f32) (xr : Fin 4096 → EReal) (w1 w3 : Fin 11008 → Fin 4096 → EReal) (s1 s3 : Fin 11008 → EReal)
    (w2 : Fin 4096 → Fin 11008 → EReal) (k : ℕ) (r : Fin 128) (j : Fin 4096) (o : Fin 256) (hc : 256 * k + o.val < 11008)
    (Hx : ∀ h, hb (ix2 r h) = xr h) (H1 : ∀ h, b1 (ix2 o h) = w1 ⟨256 * k + o.val, hc⟩ h)
    (Hs1 : c1 (ix2 (0 : Fin 1) o) = s1 ⟨256 * k + o.val, hc⟩) (H3 : ∀ h, b3 (ix2 o h) = w3 ⟨256 * k + o.val, hc⟩ h)
    (Hs3 : c3 (ix2 (0 : Fin 1) o) = s3 ⟨256 * k + o.val, hc⟩) (H2 : b2 (ix2 j o) = w2 j ⟨256 * k + o.val, hc⟩) :
    ((bproj hb b1 c1 r o * Ideal.logistic (bproj hb b1 c1 r o)) * bproj hb b3 c3 r o) * b2 (ix2 j o)
      = term xr w1 w3 s1 s3 w2 j ⟨256 * k + o.val, hc⟩ := by
  unfold term act
  rw [bproj_eq hb b1 c1 xr w1 s1 k r o hc Hx H1 Hs1, bproj_eq hb b3 c3 xr w3 s3 k r o hc Hx H3 Hs3, H2]

/-! ## The layer's data as the region finds them -/

variable (m : (ℓ : Loc nD τ sig) → Buf (Elt Ideal) ℓ)

/-- Row `r` of the activations. -/
abbrev xrow (c : Dev nD) (r : Fin 128) : Fin 4096 → EReal := fun h => V m c main_v1 (ix2 r h)
/-- The two input-side weight matrices and their scales, the output-side weight matrix. -/
abbrev W1 (c : Dev nD) : Fin 11008 → Fin 4096 → EReal := fun k h => V m c main_arg1 (ix2 k h)
abbrev W3 (c : Dev nD) : Fin 11008 → Fin 4096 → EReal := fun k h => V m c main_arg3 (ix2 k h)
abbrev S1 (c : Dev nD) : Fin 11008 → EReal := fun k => V m c main_v2 (ix2 (0 : Fin 1) k)
abbrev S3 (c : Dev nD) : Fin 11008 → EReal := fun k => V m c main_v3 (ix2 (0 : Fin 1) k)
abbrev W2 (c : Dev nD) : Fin 4096 → Fin 11008 → EReal := fun j k => V m c main_arg5 (ix2 j k)

/-- The layer's terms for row `r` and output channel `j`, indexed by the inner channel as a natural number. -/
def terms (c : Dev nD) (r : Fin 128) (j : Fin 4096) : ℕ → EReal :=
  ext (term (xrow m c r) (W1 m c) (W3 m c) (S1 m c) (S3 m c) (W2 m c) j)

/-! ## One point, then all of them -/

/-- Point `t` adds chunk `t` of the layer's terms to the entry. -/
theorem step_entry (c : Dev nD) (t : Fin cfg0.N) (a : Vec Ideal S128x4096 .f32) (r : Fin 128) (j : Fin 4096) :
    step m c t a (ix2 r j) = a (ix2 r j) + chunk (terms m c r j) t.val := by
  unfold step
  refine (pay2_apply (iblk m c 0 t) (iblk m c 1 t) (iblk m c 3 t) (iblk m c 2 t) (iblk m c 4 t) (iblk m c 5 t) a r j).trans ?_
  refine congrArg (a (ix2 r j) + ·) ?_
  unfold chunk
  refine Finset.sum_congr rfl fun o _ => ?_
  have hc := chan_lt t o
  refine (term_eq (iblk m c 0 t) (iblk m c 1 t) (iblk m c 3 t) (iblk m c 2 t) (iblk m c 4 t) (iblk m c 5 t) (xrow m c r) (W1 m c) (W3 m c) (S1 m c) (S3 m c) (W2 m c)
    t.val r j o hc (fun h => x_read m c t r h) (fun h => w1_read m c t o h hc) (s1_read m c t 0 o hc)
    (fun h => w3_read m c t o h hc) (s3_read m c t 0 o hc) (w2_read m c t j o hc)).trans ?_
  exact (ext_of_lt _ hc).symm

/-- The block the first point stores before accumulating is zero. -/
theorem zero_entry (r : Fin 128) (j : Fin 4096) : (k0_pay1 (F := Ideal)) (ix2 r j) = 0 := by
  unfold k0_pay1
  rw [shapeCast_self]
  exact Ideal.ofBits_zero_f32

/-- After point `n` the entry holds the chain of the first n + 1 chunks from zero. -/
theorem acc_entry (c : Dev nD) (r : Fin 128) (j : Fin 4096) : ∀ (n : ℕ) (h : n < cfg0.N),
    acc m c n h (ix2 r j) = chain (terms m c r j) n
  | 0, h => by
    show step m c ⟨0, h⟩ (k0_pay1 (F := Ideal)) (ix2 r j) = 0 + chunk (terms m c r j) 0
    rw [step_entry, zero_entry]
  | n + 1, h => by
    show step m c ⟨n + 1, h⟩ (acc m c n (Nat.lt_of_succ_lt h)) (ix2 r j) = chain (terms m c r j) n + chunk (terms m c r j) (n + 1)
    rw [step_entry, acc_entry c r j n]

/-- After the last point the entry holds the layer's whole sum over the inner channels. -/
theorem acc_last (c : Dev nD) (r : Fin 128) (j : Fin 4096) (h : 42 < cfg0.N) :
    acc m c 42 h (ix2 r j) = ∑ k : Fin 11008, term (xrow m c r) (W1 m c) (W3 m c) (S1 m c) (S3 m c) (W2 m c) j k := by
  rw [acc_entry, sum_eq_chain]
  rfl

end Cert.KernelIdeal.Chain

end
-- ==== Proof.Final.lean ====
/-
  The kernel's result, as a function of its arguments.

  The region's result array is written back once, at the last of the 43 points, and that one block is the whole
  array: it ends holding the running sum after the last point, which at row r and output channel j is the layer's
  sum over all 11008 inner channels. After the region the program multiplies column j by the j-th output scale and
  lays the 128 rows out again as [8,16,·], row 16 b + s becoming (b, s). With the region's arrays traced back to the
  arguments, entry (b, s, j) of the result is output channel j of the layer on row (b, s) of the activations.
-/
import proofs.«124104_j27650999451936_1_alg».proof.Proof.Chain
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Ffn Cert.KernelIdeal.Accum Cert.KernelIdeal.Blocks Cert.KernelIdeal.Chain

variable (m : (ℓ : Loc nD τ sig) → Buf (Elt Ideal) ℓ) (ρ : Dev nD → PrngReg)

/-- The grid has a 43rd point. -/
theorem h42 : 42 < cfg0.N := by rw [show cfg0.N = 43 from N_0]; decide

/-- The running sum after the last point, as contents of the region's result array (its one block is the array). -/
abbrev sums (c : Dev nD) : Buf (Elt Ideal) ((c : Thread nD τ).loc main_v4) := acc m c 42 h42

/-- The one write-back, at the last point, writes the running sum: block (0, 0) of the array, of the array's own
    extents, read through zero offsets is the array. -/
theorem flushed_eq (c : Dev nD) (t : Fin cfg0.N) (hf : (cfg0.win 6).flush t = true) :
    (dats m 0 c).flushed 6 t = ((cfg0.win 6).blk t).view.read (Elt Ideal) (sums m c) := by
  have hN : cfg0.N = 43 := N_0
  have ht : t.val = 42 := by have := (flush0_6 t).mp hf; have := t.isLt; omega
  obtain ⟨e00, e01, e10, e11, e20, e21, e30, e31, e40, e41, e50, e51, e60, e61⟩ := idx_facts t
  show (cfg0.win 6).cut (grid0.coords t) ((dats m 0 c).after 6 t) = _
  rw [after0_6, out_last m c t ht]
  have hacc : acc m c t.val t.isLt = sums m c := by
    obtain ⟨n, hn⟩ := t
    dsimp only at ht
    subst ht
    rfl
  rw [hacc]
  have hz' : (fun a => win0_6.index t a * main_v4.ty.shape.size a) = fun _ => 0 := funext fun a => by
    match a with
    | ⟨0, _⟩ => show win0_6.index t (0 : Fin 2) * 128 = 0; omega
    | ⟨1, _⟩ => show win0_6.index t (1 : Fin 2) * 4096 = 0; omega
  exact (Memref.read_access_unit_zero (Elt Ideal) main_v4 hz' (fun a => by rw [congrFun hz' a]; simp) (sums m c)).symm

/-- The last point's block covers the whole result array. -/
theorem covered (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 43 := N_0
  let t : Fin cfg0.N := ⟨42, h42⟩
  refine ⟨t, (flush0_6 t).mpr rfl, ?_⟩
  obtain ⟨e00, e01, e10, e11, e20, e21, e30, e31, e40, e41, e50, e51, e60, e61⟩ := idx_facts t
  show i ∈ ((View.whole main_v4).slice (win0_6.rect t)).set
  rw [View.set_slice_whole, Rect.mem_set_unit]
  intro a
  have h0 : (i 0 : Nat) < 128 := (i 0).isLt
  have h1 : (i 1 : Nat) < 4096 := (i 1).isLt
  match a with
  | ⟨0, _⟩ => show win0_6.index t (0 : Fin 2) * 128 ≤ (i 0 : Nat) ∧ (i 0 : Nat) < win0_6.index t (0 : Fin 2) * 128 + 128; omega
  | ⟨1, _⟩ => show win0_6.index t (1 : Fin 2) * 4096 ≤ (i 1 : Nat) ∧ (i 1 : Nat) < win0_6.index t (1 : Fin 2) * 4096 + 4096; omega

/-- So the region's result array ends holding the running sum after the last point. -/
theorem final_sums (c : Dev nD) : (dats m 0 c).arrAt 6 cfg0.N = sums m c :=
  (dats m 0 c).arrAt_eq_of_cover 6 (sums m c) (flushed_eq m c) (covered c)

/-! ## After the region -/

/-- The lines after the region as one function of the region's result array and the vector of output scales: the
    scales broadcast down the 128 rows, the product entry by entry, the rows laid out as [8,16,4096]. -/
def tailOf (a : FVec Ideal S128x4096 .f32) (a6 : FVec Ideal S4096 .f32) : FVec Ideal S8x16x4096 .f32 :=
  shapeCast S8x16x4096 (mulf a (broadcastInDim S128x4096 ![0, 1] bcast_S1x4096_S128x4096_0_1
    (broadcastInDim S1x4096 ![1] bcast_S4096_S1x4096_1 a6))) shapeCasts_S128x4096_S8x16x4096

/-- The program's result is that function of the running sum after the last point and the output scales. -/
theorem tail_eq (c : Dev nD) : Pipeline.afterTail₀ cfgs (dats m) 0 (V0 m) [hostOps1] c main_v8
    = tailOf (sums m c) (m ((c : Thread nD τ).loc main_arg6)) := by
  have e4 : Pipeline.withArrays (cfgs 0).spec c (V0 m c) (fun w => (dats m 0 c).arrAt w (cfgs 0).N) (Proc.devRef .tc main_v4) = sums m c :=
    (Pipeline.withArrays_arr spec0 launch0.win.arr_inj c _ _ 6).trans (final_sums m c)
  have e6 : Pipeline.withArrays (cfgs 0).spec c (V0 m c) (fun w => (dats m 0 c).arrAt w (cfgs 0).N) (Proc.devRef .tc main_arg6) = m ((c : Thread nD τ).loc main_arg6) :=
    (Pipeline.withArrays_of_ne _ c (V0 m c) _ main_arg6 (by exact (by decide : ∀ w, Pipeline.arrRef spec0 w ≠ main_arg6))).trans (V_main_arg6 m c)
  unfold Pipeline.afterTail₀
  show StableHlo.after hostOps1 _ (Proc.devRef .tc main_v8) = _
  after_results
  rw [e4, e6]
  rfl

/-- The row of output scales broadcast down the 128 rows reads, at (r, j), scale j. -/
theorem scale_entry (a6 : S4096.Idx → EReal) (r : Fin 128) (j : Fin 4096) :
    broadcastInDim S128x4096 ![0, 1] bcast_S1x4096_S128x4096_0_1 (broadcastInDim S1x4096 ![1] bcast_S4096_S1x4096_1 a6) (ix2 r j)
      = a6 (ix1 j) := by
  generalize hy : broadcastInDim S1x4096 ![1] bcast_S4096_S1x4096_1 a6 = y
  refine (broadcastInDim_apply _ bcast_S1x4096_S128x4096_0_1 y (ix2 r j) (ix2 (0 : Fin 1) j) (fun a => match a with
    | ⟨0, _⟩ => by show 0 = if (1 : Nat) = 1 then 0 else r.val; rw [if_pos rfl]
    | ⟨1, _⟩ => by show j.val = if (4096 : Nat) = 1 then 0 else j.val; rw [if_neg (by decide)])).trans ?_
  rw [← hy]
  exact broadcastInDim_apply _ bcast_S4096_S1x4096_1 a6 (ix2 (0 : Fin 1) j) (ix1 j) (fun a => match a with
    | ⟨0, _⟩ => by show j.val = if (4096 : Nat) = 1 then 0 else j.val; rw [if_neg (by decide)])

/-- The layer's data as the region finds them are the arguments: row 16 b + s of the activations is row (b, s). -/
theorem xrow_eq (c : Dev nD) (b : Fin 8) (s : Fin 16) (hr : 16 * b.val + s.val < 128) :
    xrow m c ⟨16 * b.val + s.val, hr⟩ = fun h => m ((c : Thread nD τ).loc main_arg0) (ix3 b s h) :=
  funext fun h => x_entry m c b s h hr
theorem W1_eq (c : Dev nD) : W1 m c = fun k h => m ((c : Thread nD τ).loc main_arg1) (ix2 k h) := by
  unfold W1; rw [V_main_arg1]
theorem W3_eq (c : Dev nD) : W3 m c = fun k h => m ((c : Thread nD τ).loc main_arg3) (ix2 k h) := by
  unfold W3; rw [V_main_arg3]
theorem W2_eq (c : Dev nD) : W2 m c = fun j k => m ((c : Thread nD τ).loc main_arg5) (ix2 j k) := by
  unfold W2; rw [V_main_arg5]
theorem S1_eq (c : Dev nD) : S1 m c = fun k => m ((c : Thread nD τ).loc main_arg2) (ix1 k) :=
  funext fun k => s1_entry m c 0 k
theorem S3_eq (c : Dev nD) : S3 m c = fun k => m ((c : Thread nD τ).loc main_arg4) (ix1 k) :=
  funext fun k => s3_entry m c 0 k

/-- Entry (b, s, j) of the program's result is output channel `j` of the layer on row (b, s) of the activations. -/
theorem result_entry (c : Dev nD) (b : Fin 8) (s : Fin 16) (j : Fin 4096) :
    Pipeline.afterTail₀ cfgs (dats m) 0 (V0 m) [hostOps1] c main_v8 (ix3 b s j)
      = out (fun h => m ((c : Thread nD τ).loc main_arg0) (ix3 b s h)) (fun k h => m ((c : Thread nD τ).loc main_arg1) (ix2 k h)) (fun k h => m ((c : Thread nD τ).loc main_arg3) (ix2 k h))
          (fun k => m ((c : Thread nD τ).loc main_arg2) (ix1 k)) (fun k => m ((c : Thread nD τ).loc main_arg4) (ix1 k)) (fun j' k => m ((c : Thread nD τ).loc main_arg5) (ix2 j' k)) (fun j' => m ((c : Thread nD τ).loc main_arg6) (ix1 j')) j := by
  have hr : 16 * b.val + s.val < 128 := by have := b.isLt; have := s.isLt; omega
  rw [tail_eq]
  unfold tailOf
  refine (shapeCast_apply _ shapeCasts_S128x4096_S8x16x4096 (ix3 b s j) (ix2 ⟨16 * b.val + s.val, hr⟩ j) (by
    rw [Shape.rowMajor_val_two, Shape.rowMajor_val_three]
    show (16 * b.val + s.val) * 4096 + j.val = (b.val * 16 + s.val) * 4096 + j.val
    omega)).trans ?_
  refine (mulf_apply (s := S128x4096) (φ := .f32) (sums m c) _ (ix2 ⟨16 * b.val + s.val, hr⟩ j)).trans ?_
  rw [scale_entry]
  have hs : acc m c 42 h42 (ix2 ⟨16 * b.val + s.val, hr⟩ j)
      = ∑ k : Fin 11008, term (fun h => m ((c : Thread nD τ).loc main_arg0) (ix3 b s h)) (fun k h => m ((c : Thread nD τ).loc main_arg1) (ix2 k h)) (fun k h => m ((c : Thread nD τ).loc main_arg3) (ix2 k h))
          (fun k => m ((c : Thread nD τ).loc main_arg2) (ix1 k)) (fun k => m ((c : Thread nD τ).loc main_arg4) (ix1 k)) (fun j' k => m ((c : Thread nD τ).loc main_arg5) (ix2 j' k)) j k := by
    rw [acc_last, xrow_eq m c b s hr, W1_eq, W3_eq, W2_eq, S1_eq, S3_eq]
  unfold out
  exact congrArg (fun x : EReal => x * (m ((c : Thread nD τ).loc main_arg6) (ix1 j) : EReal)) hs

/-! ## The run -/

/-- What the program's result buffer ends holding, as contents of that buffer. -/
def result (c : Dev nD) : Buf (Elt Ideal) ((c : Thread nD τ).loc main_v8) := fun i =>
  out (fun h => m ((c : Thread nD τ).loc main_arg0) (ix3 (i 0) (i 1) h)) (fun k h => m ((c : Thread nD τ).loc main_arg1) (ix2 k h)) (fun k h => m ((c : Thread nD τ).loc main_arg3) (ix2 k h))
          (fun k => m ((c : Thread nD τ).loc main_arg2) (ix1 k)) (fun k => m ((c : Thread nD τ).loc main_arg4) (ix1 k)) (fun j' k => m ((c : Thread nD τ).loc main_arg5) (ix2 j' k)) (fun j' => m ((c : Thread nD τ).loc main_arg6) (ix1 j')) (i 2)

theorem result_eq (c : Dev nD) : Pipeline.afterTail₀ cfgs (dats m) 0 (V0 m) [hostOps1] c main_v8 = result m c := by
  funext i
  obtain ⟨b, s, j, rfl⟩ : ∃ (b : Fin 8) (s : Fin 16) (j : Fin 4096), i = ix3 b s j := ⟨i 0, i 1, i 2, eq_ix3 i⟩
  exact result_entry m c b s j

/-- Every weakly fair execution of the idealized kernel program terminates with the result buffer at the layer's
    output and the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v8 (Pipeline.mem_restRefs_of main_v8 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.Result

end
-- ==== Proof.RefSpec.lean ====
/-
  The reference's result, read at one entry, is the layer of Spec.lean applied to that entry's row.

  The reference contracts the activations [8,16,4096] with each input-side weight matrix over the last axis, scales
  each inner channel, forms silu(up) · gate with silu u = u · (1 / (1 + exp (-u))), contracts with the output-side
  matrix over the 11008 inner channels and scales each output channel. On the extended reals
  1 / (1 + exp (-u)) is the logistic function, at the infinities too.
-/
import proofs.«124104_j27650999451936_1_alg».proof.Proof.Gen.ReferenceIdeal.Read
import proofs.«124104_j27650999451936_1_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Gen Idealize.ShloMosaic Idealize.ShloMosaic.ValueIdx

/-! ## Where the reference reads its operands -/

/-- The word 0x3F800000 is the extended real 1. -/
theorem one_f32 : Ideal.ofBits .f32 0x3F800000#32 = 1 := IdealRules.sign_bit.ideal_onePat .f32

/-- Entry (b, s, c) of the first input-side contraction reads row (b, s) of the activations at k … -/
theorem lidx_v0 (b : Fin 8) (s : Fin 16) (c : Fin 11008) (k : Fin 4096) :
    Read.lidx_main_v0 (ix3 b s c) k = ix3 b s k :=
  funext fun a => by match a with | ⟨0, _⟩ => rfl | ⟨1, _⟩ => rfl | ⟨2, _⟩ => rfl
/-- … and row c of its weight matrix at k. -/
theorem ridx_v0 (b : Fin 8) (s : Fin 16) (c : Fin 11008) (k : Fin 4096) :
    Read.ridx_main_v0 (ix3 b s c) k = ix2 c k :=
  funext fun a => by match a with | ⟨0, _⟩ => rfl | ⟨1, _⟩ => rfl
/-- The second input-side contraction reads the same places. -/
theorem lidx_v4 (b : Fin 8) (s : Fin 16) (c : Fin 11008) (k : Fin 4096) :
    Read.lidx_main_v4 (ix3 b s c) k = ix3 b s k :=
  funext fun a => by match a with | ⟨0, _⟩ => rfl | ⟨1, _⟩ => rfl | ⟨2, _⟩ => rfl
theorem ridx_v4 (b : Fin 8) (s : Fin 16) (c : Fin 11008) (k : Fin 4096) :
    Read.ridx_main_v4 (ix3 b s c) k = ix2 c k :=
  funext fun a => by match a with | ⟨0, _⟩ => rfl | ⟨1, _⟩ => rfl
/-- The two broadcasts of a per-channel scale read it at the entry's channel. -/
theorem idx_v2_v1 (b : Fin 8) (s : Fin 16) (c : Fin 11008) :
    Read.idx_main_v1 (Read.idx_main_v2 (ix3 b s c)) = ix1 c :=
  funext fun a => by match a with | ⟨0, _⟩ => rfl
theorem idx_v6_v5 (b : Fin 8) (s : Fin 16) (c : Fin 11008) :
    Read.idx_main_v5 (Read.idx_main_v6 (ix3 b s c)) = ix1 c :=
  funext fun a => by match a with | ⟨0, _⟩ => rfl
theorem idx_v12_v11 (b : Fin 8) (s : Fin 16) (j : Fin 4096) :
    Read.idx_main_v11 (Read.idx_main_v12 (ix3 b s j)) = ix1 j :=
  funext fun a => by match a with | ⟨0, _⟩ => rfl
/-- Entry (b, s, j) of the output-side contraction reads the activation of row (b, s) at channel k … -/
theorem lidx_v10 (b : Fin 8) (s : Fin 16) (j : Fin 4096) (k : Fin 11008) :
    Read.lidx_main_v10 (ix3 b s j) k = ix3 b s k :=
  funext fun a => by match a with | ⟨0, _⟩ => rfl | ⟨1, _⟩ => rfl | ⟨2, _⟩ => rfl
/-- … and row j of the output-side matrix at k. -/
theorem ridx_v10 (b : Fin 8) (s : Fin 16) (j : Fin 4096) (k : Fin 11008) :
    Read.ridx_main_v10 (ix3 b s j) k = ix2 j k :=
  funext fun a => by match a with | ⟨0, _⟩ => rfl | ⟨1, _⟩ => rfl

/-! ## The stages -/

/-- The scaled first projection at (b, s, c) is the specification's projection of row (b, s) with the first weight matrix. -/
theorem up_apply (x0 : (⟨S8x16x4096, .f32⟩ : BufTy).Contents (Elt Ideal)) (x1 : (⟨S11008x4096, .f32⟩ : BufTy).Contents (Elt Ideal))
    (x2 : (⟨S11008, .f32⟩ : BufTy).Contents (Elt Ideal)) (b : Fin 8) (s : Fin 16) (c : Fin 11008) :
    Read.val_main_v3 (F := Ideal) x0 x1 x2 (ix3 b s c)
      = Cert.Ffn.proj (fun h => x0 (ix3 b s h)) (fun c h => x1 (ix2 c h)) (fun c => x2 (ix1 c)) c := by
  rw [Read.val_main_v3_apply, Read.val_main_v0_apply, Read.val_main_v2_apply, Read.val_main_v1_apply, idx_v2_v1]
  simp only [lidx_v0, ridx_v0]
  rfl

/-- The scaled second projection at (b, s, c) is the projection of row (b, s) with the second weight matrix. -/
theorem gate_apply (x0 : (⟨S8x16x4096, .f32⟩ : BufTy).Contents (Elt Ideal)) (x3 : (⟨S11008x4096, .f32⟩ : BufTy).Contents (Elt Ideal))
    (x4 : (⟨S11008, .f32⟩ : BufTy).Contents (Elt Ideal)) (b : Fin 8) (s : Fin 16) (c : Fin 11008) :
    Read.val_main_v7 (F := Ideal) x0 x3 x4 (ix3 b s c)
      = Cert.Ffn.proj (fun h => x0 (ix3 b s h)) (fun c h => x3 (ix2 c h)) (fun c => x4 (ix1 c)) c := by
  rw [Read.val_main_v7_apply, Read.val_main_v4_apply, Read.val_main_v6_apply, Read.val_main_v5_apply, idx_v6_v5]
  simp only [lidx_v4, ridx_v4]
  rfl

/-- The gated activation at (b, s, c): the reference writes the logistic factor as 1 / (1 + exp (-u)), which is the
    definition of the logistic function on the extended reals. -/
theorem act_apply (x0 : (⟨S8x16x4096, .f32⟩ : BufTy).Contents (Elt Ideal)) (x1 : (⟨S11008x4096, .f32⟩ : BufTy).Contents (Elt Ideal))
    (x2 : (⟨S11008, .f32⟩ : BufTy).Contents (Elt Ideal)) (x3 : (⟨S11008x4096, .f32⟩ : BufTy).Contents (Elt Ideal))
    (x4 : (⟨S11008, .f32⟩ : BufTy).Contents (Elt Ideal)) (b : Fin 8) (s : Fin 16) (c : Fin 11008) :
    Read.val_main_v9 (F := Ideal) x0 x1 x2 x3 x4 (ix3 b s c)
      = Cert.Ffn.act (fun h => x0 (ix3 b s h)) (fun c h => x1 (ix2 c h)) (fun c h => x3 (ix2 c h))
          (fun c => x2 (ix1 c)) (fun c => x4 (ix1 c)) c := by
  rw [Read.val_main_v9_apply, Read.val_main_v8_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, up_apply, gate_apply,
    Ideal.ofBits_def, one_f32]
  rfl

/-- Entry (b, s, j) of the reference's result is output channel `j` of the layer on row (b, s) of the activations. -/
theorem ref_apply (x0 : (⟨S8x16x4096, .f32⟩ : BufTy).Contents (Elt Ideal)) (x1 : (⟨S11008x4096, .f32⟩ : BufTy).Contents (Elt Ideal))
    (x2 : (⟨S11008, .f32⟩ : BufTy).Contents (Elt Ideal)) (x3 : (⟨S11008x4096, .f32⟩ : BufTy).Contents (Elt Ideal))
    (x4 : (⟨S11008, .f32⟩ : BufTy).Contents (Elt Ideal)) (x5 : (⟨S4096x11008, .f32⟩ : BufTy).Contents (Elt Ideal))
    (x6 : (⟨S4096, .f32⟩ : BufTy).Contents (Elt Ideal)) (b : Fin 8) (s : Fin 16) (j : Fin 4096) :
    Cert.ReferenceIdeal.Read.val_main_v13 (F := Ideal) x0 x1 x2 x3 x4 x5 x6 (ix3 b s j)
      = Cert.Ffn.out (fun h => x0 (ix3 b s h)) (fun c h => x1 (ix2 c h)) (fun c h => x3 (ix2 c h))
          (fun c => x2 (ix1 c)) (fun c => x4 (ix1 c)) (fun j' c => x5 (ix2 j' c)) (fun j' => x6 (ix1 j')) j := by
  rw [Read.val_main_v13_apply, Read.val_main_v10_apply, Read.val_main_v12_apply, Read.val_main_v11_apply, idx_v12_v11]
  simp only [lidx_v10, ridx_v10, act_apply]
  rfl

end Cert.ReferenceIdeal.RefSpec

end
-- ==== Proof.lean ====
/-
  A gated feed-forward layer with per-channel weight scales, computed two ways, is one function of its arguments.

  For each of the 8 · 16 rows x of the activations (4096 entries) both programs compute, for every output channel j,
      out j = (∑ c, silu (up c) · gate c · w2 j c) · s2 j,    up c = (x · w1 c) · s1 c,   gate c = (x · w3 c) · s3 c,
  with c over 11008 inner channels and silu u = u · logistic u. The reference forms the three contractions whole
  and spells the logistic factor 1 / (1 + exp (-u)), which on the extended reals is the logistic function at the
  infinities too. The kernel walks the inner channels in 43 chunks of 256: at each grid point it forms the chunk's
  up and gate from zero-seeded products, then adds the chunk's contribution to a running sum that starts at zero,
  and after the last chunk writes the running sum out; the output scale is applied afterwards. Changes of float
  format are the identity on the extended reals, and a sum of extended reals may be regrouped and reordered freely
  (addition is commutative and associative there, the convention for ⊤ + ⊥ included), so no finiteness of the inputs
  is used: the two results agree entry by entry on every input.

  The three frames: the two kernel programs terminate without fault and leave their arguments unchanged by their
  frame runs; the reference's frame is its run with the result forgotten. The idealization rewrote nothing, so there
  is nothing to preserve. The value claim pairs the kernel's run (the running sum read off the frame run point by
  point, the chunks joined into the whole sum) with the reference's run read one operation at a time.
-/
import proofs.«124104_j27650999451936_1_alg».proof.Defs
import proofs.«124104_j27650999451936_1_alg».proof.Proof.Gen.Kernel
import proofs.«124104_j27650999451936_1_alg».proof.Proof.Gen.Kernel.Skeleton
import proofs.«124104_j27650999451936_1_alg».proof.Proof.Gen.Kernel.Launch
import proofs.«124104_j27650999451936_1_alg».proof.Proof.Gen.Kernel.Points
import proofs.«124104_j27650999451936_1_alg».proof.Proof.Gen.Kernel.Frame
import proofs.«124104_j27650999451936_1_alg».proof.Proof.Gen.KernelIdeal
import proofs.«124104_j27650999451936_1_alg».proof.Proof.Gen.KernelIdeal.Skeleton
import proofs.«124104_j27650999451936_1_alg».proof.Proof.Gen.KernelIdeal.Launch
import proofs.«124104_j27650999451936_1_alg».proof.Proof.Gen.KernelIdeal.Points
import proofs.«124104_j27650999451936_1_alg».proof.Proof.Gen.KernelIdeal.Frame
import proofs.«124104_j27650999451936_1_alg».proof.Proof.Gen.ReferenceIdeal
import proofs.«124104_j27650999451936_1_alg».proof.Proof.Gen.ReferenceIdeal.Run
import proofs.«124104_j27650999451936_1_alg».proof.Proof.Gen.ReferenceIdeal.Read
import proofs.«124104_j27650999451936_1_alg».proof.Proof.Gen.Pre_finite_inputs
import proofs.«124104_j27650999451936_1_alg».proof.Proof.Final
import proofs.«124104_j27650999451936_1_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program terminates, faults nowhere and leaves its arguments as it found them. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer's output in their result buffers:
    the kernel by its run, the reference by its run read at an entry, where both are the same function of the
    same seven arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.ReferenceIdeal.Read.val_main_v13_eq _ _ _ _ _ _ _).trans ?_
  funext i
  obtain ⟨b, s, j, rfl⟩ : ∃ (b : Fin 8) (s : Fin 16) (j : Fin 4096), i = ix3 b s j := ⟨i 0, i 1, i 2, eq_ix3 i⟩
  rw [Cert.ReferenceIdeal.RefSpec.ref_apply, a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
